-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x64 : Shape := ⟨2, ![256, 64]⟩
abbrev S64 : Shape := ⟨1, ![64]⟩
abbrev S64x256 : Shape := ⟨2, ![64, 256]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S64x256 .f32) (main_arg5 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S131072x256 .f32) (main_arg1 : FVec F S131072x256 .f32) (main_arg2 : FVec F S256x64 .f32) (main_arg3 : FVec F S64 .f32) (main_arg4 : FVec F S64x256 .f32) (main_arg5 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S131072x256 : Shape := ⟨2, ![131072, 256]⟩
abbrev S256x64 : Shape := ⟨2, ![256, 64]⟩
abbrev S64 : Shape := ⟨1, ![64]⟩
abbrev S64x256 : Shape := ⟨2, ![64, 256]⟩
abbrev S256 : Shape := ⟨1, ![256]⟩
abbrev S1x64 : Shape := ⟨2, ![1, 64]⟩
abbrev S1x256 : Shape := ⟨2, ![1, 256]⟩
abbrev S4096x256 : Shape := ⟨2, ![4096, 256]⟩
abbrev S4096x64 : Shape := ⟨2, ![4096, 64]⟩

abbrev nBuf : Space → Nat
  | .hbm => 11
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256x64, .f32⟩
  | .hbm, ⟨3, _⟩ => ⟨S64, .f32⟩
  | .hbm, ⟨4, _⟩ => ⟨S64x256, .f32⟩
  | .hbm, ⟨5, _⟩ => ⟨S256, .f32⟩
  | .hbm, ⟨6, _⟩ => ⟨S1x64, .f32⟩
  | .hbm, ⟨7, _⟩ => ⟨S1x256, .f32⟩
  | .hbm, ⟨8, _⟩ => ⟨S256x64, .bf16⟩
  | .hbm, ⟨9, _⟩ => ⟨S64x256, .bf16⟩
  | .hbm, ⟨10, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x64, .bf16⟩
  | .local _ .vmem, ⟨5, _⟩ => ⟨S1x64, .f32⟩
  | .local _ .vmem, ⟨6, _⟩ => ⟨S64x256, .bf16⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  shapeCasts_S256_S1x256 : S256.ShapeCasts S1x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x64_S4096x64 : S1x64.Broadcasts S4096x64
  broadcasts_S1x256_S4096x256 : S1x256.Broadcasts S4096x256
  dot_S4096x256_S256x64_S4096x64_1_0_0_1_n_n_wf : DotDims.WF S4096x256 S256x64 S4096x64 [1] [0] [0] [1] [] []
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .bf16 = 32 ∨ (Rect.block (s := S256x64) S256x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .bf16 = 32 ∨ (Rect.block (s := S64x256) S64x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S131072x256.size a
  hwx0_6 : ∀ i : grid0.Coords, EltTy.bits .f32 = 32 ∨ (Rect.block (s := S131072x256) S4096x256.size (cc0_transform_6 i) (hinb0_6 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x64 : Shape := ⟨2, ![256, 64]⟩
abbrev S64 : Shape := ⟨1, ![64]⟩
abbrev S64x256 : Shape := ⟨2, ![64, 256]⟩
abbrev S256 : Shape := ⟨1, ![256]⟩
abbrev S131072x64 : Shape := ⟨2, ![131072, 64]⟩
abbrev S1x64 : Shape := ⟨2, ![1, 64]⟩
abbrev S_ : Shape := ⟨0, ![]⟩
abbrev S1x256 : Shape := ⟨2, ![1, 256]⟩

abbrev nBuf : Space → Nat
  | .hbm => 21
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256x64, .f32⟩
  | .hbm, ⟨3, _⟩ => ⟨S64, .f32⟩
  | .hbm, ⟨4, _⟩ => ⟨S64x256, .f32⟩
  | .hbm, ⟨5, _⟩ => ⟨S256, .f32⟩
  | .hbm, ⟨6, _⟩ => ⟨S131072x64, .f32⟩
  | .hbm, ⟨7, _⟩ => ⟨S1x64, .f32⟩
  | .hbm, ⟨8, _⟩ => ⟨S131072x64, .f32⟩
  | .hbm, ⟨9, _⟩ => ⟨S131072x64, .f32⟩
  | .hbm, ⟨10, _⟩ => ⟨S_, .f32⟩
  | .hbm, ⟨11, _⟩ => ⟨S131072x64, .f32⟩
  | .hbm, ⟨12, _⟩ => ⟨S131072x64, .f32⟩
  | .hbm, ⟨13, _⟩ => ⟨S131072x256, .f32⟩
  | .hbm, ⟨14, _⟩ => ⟨S1x256, .f32⟩
  | .hbm, ⟨15, _⟩ => ⟨S131072x256, .f32⟩
  | .hbm, ⟨16, _⟩ => ⟨S131072x256, .f32⟩
  | .hbm, ⟨17, _⟩ => ⟨S131072x256, .f32⟩
  | .hbm, ⟨18, _⟩ => ⟨S131072x256, .f32⟩
  | .hbm, ⟨19, _⟩ => ⟨S131072x256, .f32⟩
  | .hbm, ⟨20, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  dot_S131072x256_S256x64_S131072x64_1_0_0_1_n_n_wf : DotDims.WF S131072x256 S256x64 S131072x64 [1] [0] [0] [1] [] []
  dot_S131072x64_S64x256_S131072x256_1_0_0_1_n_n_wf : DotDims.WF S131072x64 S64x256 S131072x256 [1] [0] [0] [1] [] []

variable [Facts₀]

def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf
def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf

class Facts : Prop extends Facts₀ where

variable [Facts]
-- ==== Proof.KernelPayload.lean ====
/-
  The kernel body's one stored value, read at an index. For a block of 4096 rows, with `v₀` the block of `x`,
  `v₁` the block of `ε`, and `v₂, v₄, v₆, v₈` the whole of `W₁`, `b₁` (as a row), `W₂`, `b₂` (as a row), entry `[p, q]` is

    v₀[p, q] + exp (½ · (∑ₖ max (∑ₗ v₀[p, l] · v₂[l, k] + v₄[0, k]) 0 · v₆[k, q] + v₈[0, q])) · v₁[p, q].

  The two changes of float format in the body are the identity on the extended reals; each matrix product into a
  zero accumulator is the plain sum over its contracted axis; a bias row is broadcast along the rows.
-/
import proofs.«425788_j67336497267186_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ### The first product: a block of rows of `x` times `W₁` -/

theorem lhs_inProd_0 (i : S4096x64.Idx) (q : dot_S4096x256_S256x64_S4096x64_1_0_0_1_n_n.contr.Idx) :
    (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem lhs_inProd_1 (i : S4096x64.Idx) (q : dot_S4096x256_S256x64_S4096x64_1_0_0_1_n_n.contr.Idx) :
    (dot_S4096x256_S256x64_S4096x64_1_0_0_1_n_n.lhsIdx i q 1).val = (q ⟨0, by decide⟩).val :=
  dot_S4096x256_S256x64_S4096x64_1_0_0_1_n_n.lhsIdx_val_of_single rfl i q
theorem rhs_inProd_0 (i : S4096x64.Idx) (q : dot_S4096x256_S256x64_S4096x64_1_0_0_1_n_n.contr.Idx) :
    (dot_S4096x256_S256x64_S4096x64_1_0_0_1_n_n.rhsIdx i q 0).val = (q ⟨0, by decide⟩).val :=
  dot_S4096x256_S256x64_S4096x64_1_0_0_1_n_n.rhsIdx_val_of_single rfl i q
theorem rhs_inProd_1 (i : S4096x64.Idx) (q : dot_S4096x256_S256x64_S4096x64_1_0_0_1_n_n.contr.Idx) :
    (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- Entry `[p, c]` of the product into a zero accumulator is the sum over the contracted axis of `l[p, a] · r[a, c]`. -/
theorem inProd_apply (l : FVec Ideal S4096x256 .bf16) (r : FVec Ideal S256x64 .bf16) (i : S4096x64.Idx) :
    matmul dot_S4096x256_S256x64_S4096x64_1_0_0_1_n_n none l r (constant (F := Ideal) S4096x64 .f32 0x00000000#32) i
      = ∑ a : Fin 256, l (ix2 (i 0) a) * r (ix2 a (i 1)) := by
  refine (Ideal.matmul_constant_zero_apply dot_S4096x256_S256x64_S4096x64_1_0_0_1_n_n none l r i).trans ?_
  rw [← Equiv.sum_comp (contrEquiv1 dot_S4096x256_S256x64_S4096x64_1_0_0_1_n_n 256 rfl rfl).symm]
  refine Finset.sum_congr rfl fun a _ => ?_
  have hk := contrEquiv1_symm_val dot_S4096x256_S256x64_S4096x64_1_0_0_1_n_n 256 rfl rfl a
  have el : dot_S4096x256_S256x64_S4096x64_1_0_0_1_n_n.lhsIdx i ((contrEquiv1 dot_S4096x256_S256x64_S4096x64_1_0_0_1_n_n 256 rfl rfl).symm a) = ix2 (i 0) a := funext fun d => Fin.ext (by
    match d with
    | ⟨0, _⟩ => exact lhs_inProd_0 _ _
    | ⟨1, _⟩ => exact (lhs_inProd_1 _ _).trans hk)
  have er : dot_S4096x256_S256x64_S4096x64_1_0_0_1_n_n.rhsIdx i ((contrEquiv1 dot_S4096x256_S256x64_S4096x64_1_0_0_1_n_n 256 rfl rfl).symm a) = ix2 a (i 1) := funext fun d => Fin.ext (by
    match d with
    | ⟨0, _⟩ => exact (rhs_inProd_0 _ _).trans hk
    | ⟨1, _⟩ => exact rhs_inProd_1 _ _)
  rw [el, er]
  rfl

/-! ### The second product: the hidden units of the block times `W₂` -/

theorem lhs_outProd_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem lhs_outProd_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
theorem rhs_outProd_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
theorem rhs_outProd_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- Entry `[p, c]` of the product into a zero accumulator is the sum over the contracted axis of `l[p, a] · r[a, c]`. -/
theorem outProd_apply (l : FVec Ideal S4096x64 .bf16) (r : FVec Ideal S64x256 .bf16) (i : S4096x256.Idx) :
    matmul dot_S4096x64_S64x256_S4096x256_1_0_0_1_n_n none l r (constant (F := Ideal) S4096x256 .f32 0x00000000#32) i
      = ∑ a : Fin 64, l (ix2 (i 0) a) * r (ix2 a (i 1)) := by
  refine (Ideal.matmul_constant_zero_apply dot_S4096x64_S64x256_S4096x256_1_0_0_1_n_n none l r i).trans ?_
  rw [← Equiv.sum_comp (contrEquiv1 dot_S4096x64_S64x256_S4096x256_1_0_0_1_n_n 64 rfl rfl).symm]
  refine Finset.sum_congr rfl fun a _ => ?_
  have hk := contrEquiv1_symm_val dot_S4096x64_S64x256_S4096x256_1_0_0_1_n_n 64 rfl rfl a
  have el : dot_S4096x64_S64x256_S4096x256_1_0_0_1_n_n.lhsIdx i ((contrEquiv1 dot_S4096x64_S64x256_S4096x256_1_0_0_1_n_n 64 rfl rfl).symm a) = ix2 (i 0) a := funext fun d => Fin.ext (by
    match d with
    | ⟨0, _⟩ => exact lhs_outProd_0 _ _
    | ⟨1, _⟩ => exact (lhs_outProd_1 _ _).trans hk)
  have er : dot_S4096x64_S64x256_S4096x256_1_0_0_1_n_n.rhsIdx i ((contrEquiv1 dot_S4096x64_S64x256_S4096x256_1_0_0_1_n_n 64 rfl rfl).symm a) = ix2 a (i 1) := funext fun d => Fin.ext (by
    match d with
    | ⟨0, _⟩ => exact (rhs_outProd_0 _ _).trans hk
    | ⟨1, _⟩ => exact rhs_outProd_1 _ _)
  rw [el, er]
  rfl

/-! ### The bias rows broadcast along the block's rows -/

/-- The row `[1, 64]` broadcast to `[4096, 64]`, at `[p, k]`, is the row's entry `k`. -/
theorem biasIn_apply (b : FVec Ideal S1x64 .f32) (i : S4096x64.Idx) :
    broadcastTo S4096x64 b broadcasts_S1x64_S4096x64 i = b (ix2 0 (i 1)) :=
  broadcastTo_apply b broadcasts_S1x64_S4096x64 i (ix2 0 (i 1)) (fun a => match a with
    | ⟨0, _⟩ => by show 0 = if (1 : Nat) = 1 then 0 else _; rw [if_pos rfl]
    | ⟨1, _⟩ => by show (i 1).val = if (64 : Nat) = 1 then 0 else (i 1).val; rw [if_neg (by decide)])

/-- The row `[1, 256]` broadcast to `[4096, 256]`, at `[p, q]`, is the row's entry `q`. -/
theorem biasOut_apply (b : FVec Ideal S1x256 .f32) (i : S4096x256.Idx) :
    broadcastTo S4096x256 b broadcasts_S1x256_S4096x256 i = b (ix2 0 (i 1)) :=
  broadcastTo_apply b broadcasts_S1x256_S4096x256 i (ix2 0 (i 1)) (fun a => match a with
    | ⟨0, _⟩ => by show 0 = if (1 : Nat) = 1 then 0 else _; rw [if_pos rfl]
    | ⟨1, _⟩ => by show (i 1).val = if (256 : Nat) = 1 then 0 else (i 1).val; rw [if_neg (by decide)])

/-! ### The stored value at an index -/

/-- The hidden unit `k` of the block's row `p`, from the block and the weights as loaded. -/
def hiddenAt (v0 : FVec Ideal S4096x256 .f32) (v2 : FVec Ideal S256x64 .bf16) (v4 : FVec Ideal S1x64 .f32) (p : Fin 4096) (k : Fin 64) : EReal :=
  max ((∑ l : Fin 256, v0 (ix2 p l) * v2 (ix2 l k)) + v4 (ix2 0 k)) 0

/-- The body's stored value at `[p, q]`. -/
theorem pay_apply (v0 v1 : FVec Ideal S4096x256 .f32) (v2 : FVec Ideal S256x64 .bf16) (v4 : FVec Ideal S1x64 .f32)
    (v6 : FVec Ideal S64x256 .bf16) (v8 : FVec Ideal S1x256 .f32) (p : Fin 4096) (q : Fin 256) :
    k0_pay1 (F := Ideal) v0 v1 v2 v4 v6 v8 (ix2 p q)
      = v0 (ix2 p q) + Ideal.exp (Ideal.ofBits .f32 0x3F000000#32
          * ((∑ k : Fin 64, hiddenAt v0 v2 v4 p k * v6 (ix2 k q)) + v8 (ix2 0 q))) * v1 (ix2 p q) := by
  unfold k0_pay1
  simp only [shapeCast_self]
  show v0 (ix2 p q) + Ideal.exp (Ideal.ofBits .f32 0x3F000000#32 * (matmul dot_S4096x64_S64x256_S4096x256_1_0_0_1_n_n none _ v6 (constant (F := Ideal) S4096x256 .f32 0x00000000#32) (ix2 p q) + broadcastTo S4096x256 v8 broadcasts_S1x256_S4096x256 (ix2 p q))) * v1 (ix2 p q) = _
  rw [outProd_apply, biasOut_apply]
  refine congrArg (fun s => v0 (ix2 p q) + Ideal.exp (Ideal.ofBits .f32 0x3F000000#32 * (s + v8 (ix2 0 q))) * v1 (ix2 p q)) ?_
  refine Finset.sum_congr rfl fun k _ => ?_
  refine congrArg (· * v6 (ix2 k q)) ?_
  show max (matmul dot_S4096x256_S256x64_S4096x64_1_0_0_1_n_n none _ v2 (constant (F := Ideal) S4096x64 .f32 0x00000000#32) (ix2 p k) + broadcastTo S4096x64 v4 broadcasts_S1x64_S4096x64 (ix2 p k)) (Ideal.ofBits .f32 0x00000000#32) = _
  rw [inProd_apply, biasIn_apply, Ideal.ofBits_zero_f32]
  rfl

end Cert.KernelIdeal.Payload

end
-- ==== Proof.SampleSpec.lean ====
/-
  What both programs compute, as one function of the six argument arrays, index by index.
  For row `r` and column `j`, with `x, ε : [131072, 256]`, `W₁ : [256, 64]`, `b₁ : [64]`, `W₂ : [64, 256]`, `b₂ : [256]`:

    hidden r k  = max (∑ₗ x[r, l] · W₁[l, k] + b₁[k]) 0              (the first linear layer, then the rectifier)
    logVar r j  = ∑ₖ hidden r k · W₂[k, j] + b₂[j]                    (the second linear layer: the log-variance)
    sample[r,j] = x[r, j] + √(exp (logVar r j)) · ε[r, j]             (a draw from the diagonal Gaussian around x)

  Entry `[r, j]` depends on row `r` of `x`, on entry `[r, j]` of `ε` and on all of the weights; nothing else.
  The sums are sums in the commutative monoid of the extended reals, so their order is immaterial.
-/
import Idealize.ShloMosaic.PureOps.Ideal
import Idealize.ShloMosaic.Lib.ValueIdx

noncomputable section

namespace Cert.Sample

open Idealize.ShloMosaic Idealize.ShloMosaic.ValueIdx

abbrev Rows : Shape := ⟨2, ![131072, 256]⟩
abbrev InW : Shape := ⟨2, ![256, 64]⟩
abbrev InB : Shape := ⟨1, ![64]⟩
abbrev OutW : Shape := ⟨2, ![64, 256]⟩
abbrev OutB : Shape := ⟨1, ![256]⟩

/-- The hidden unit `k` of row `r`: the first affine map, rectified. -/
def hidden (x : Rows.Idx → EReal) (W1 : InW.Idx → EReal) (b1 : InB.Idx → EReal) (r : Fin 131072) (k : Fin 64) : EReal :=
  max ((∑ l : Fin 256, x (ix2 r l) * W1 (ix2 l k)) + b1 (ix1 k)) 0

/-- The log-variance of row `r` at column `j`: the second affine map of the hidden units. -/
def logVar (x : Rows.Idx → EReal) (W1 : InW.Idx → EReal) (b1 : InB.Idx → EReal) (W2 : OutW.Idx → EReal) (b2 : OutB.Idx → EReal)
    (r : Fin 131072) (j : Fin 256) : EReal :=
  (∑ k : Fin 64, hidden x W1 b1 r k * W2 (ix2 k j)) + b2 (ix1 j)

/-- The sample: the mean `x` plus the standard deviation `√(exp logVar)` times the noise `ε`. -/
def sample (x eps : Rows.Idx → EReal) (W1 : InW.Idx → EReal) (b1 : InB.Idx → EReal) (W2 : OutW.Idx → EReal) (b2 : OutB.Idx → EReal) :
    Rows.Idx → EReal :=
  fun i => x i + Ideal.sqrt (Ideal.exp (logVar x W1 b1 W2 b2 (i 0) (i 1))) * eps i

end Cert.Sample

end
-- ==== Proof.HalfExp.lean ====
/-
  The one law that joins the two programs. The kernel takes the standard deviation of a diagonal Gaussian as
  `exp (z / 2)`, the reference as `√(exp z)`: on the extended reals these are one function of `z`.
  For a real `z` it is the real identity `e^(z/2) = √(e^z)`; at `+∞` both sides are `+∞` (a positive real
  times `+∞` is `+∞`, its exponential `+∞`, whose root is `+∞`); at `-∞` both are `0` (the product is
  `-∞`, its exponential `0`, whose root is `0`). So nothing about the size of `z` is needed.
-/
import Idealize.ShloMosaic.PureOps.Ideal
import Mathlib.Analysis.SpecialFunctions.Exp

noncomputable section

namespace Cert.HalfExp

open Idealize.ShloMosaic

/-- The pattern `0x3F000000` of `0.5` denotes the real `1/2`. -/
theorem ofBits_half : Ideal.ofBits .f32 0x3F000000#32 = ((1 / 2 : ℝ) : EReal) := by
  simp [Ideal.ofBits, Ideal.ieee, -EReal.coe_mul]; norm_num

/-- `exp (z / 2) = √(exp z)` for every extended real `z`, the half written as a product with `1/2`. -/
theorem exp_half_mul (z : EReal) :
    Ideal.exp (((1 / 2 : ℝ) : EReal) * z) = Ideal.sqrt (Ideal.exp z) := by
  induction z using EReal.rec with
  | bot =>
    rw [EReal.coe_mul_bot_of_pos (by norm_num : (0 : ℝ) < 1 / 2), Ideal.exp_bot, ← EReal.coe_zero, Ideal.sqrt_coe]
    simp
  | coe r =>
    rw [← EReal.coe_mul, Ideal.exp_coe, Ideal.exp_coe, Ideal.sqrt_coe, if_neg (not_lt.mpr (Real.exp_nonneg r)),
      ← Real.exp_half]
    congr 2
    ring
  | top =>
    rw [EReal.coe_mul_top_of_pos (by norm_num : (0 : ℝ) < 1 / 2), Ideal.exp_top, Ideal.sqrt_top]

/-- The same law over the pattern the kernel spells. -/
theorem exp_halfBits_mul (z : EReal) :
    Ideal.exp (Ideal.ofBits .f32 0x3F000000#32 * z) = Ideal.sqrt (Ideal.exp z) := by
  rw [ofBits_half]; exact exp_half_mul z

end Cert.HalfExp

end
-- ==== Proof.BlockEntry.lean ====
/-
  One entry of one block. Suppose a block of rows of `x` and of `ε` sits at row offset such that its row `p` is the
  arrays' row `r`, and the weights are loaded whole (the biases as rows). Then the value the body stores at
  `[p, q]` is the specification's entry `[r, q]`: the two sides differ only in the standard deviation, which the body
  takes as `exp (½ · z)` and the specification as `√(exp z)`, one function of the log-variance `z`
  on the extended reals (no bound on `z` is needed).
-/
import proofs.«425788_j67336497267186_3_alg».proof.Proof.KernelPayload
import proofs.«425788_j67336497267186_3_alg».proof.Proof.SampleSpec
import proofs.«425788_j67336497267186_3_alg».proof.Proof.HalfExp

noncomputable section

namespace Cert.KernelIdeal.Payload

open Cert.KernelIdeal Cert.KernelIdeal.Gen Idealize.ShloMosaic Idealize.ShloMosaic.ValueIdx Cert.Sample

/-- The body's stored value at `[p, q]` is `sample` at `[r, q]`, given that the loaded blocks are the arrays' entries
    at row `r` (`hx`, `he`) and the loaded weights are the weight arrays (`hW1`, `hb1`, `hW2`, `hb2`). -/
theorem pay_eq_sample (X E : Rows.Idx → EReal) (W1 : InW.Idx → EReal) (B1 : InB.Idx → EReal) (W2 : OutW.Idx → EReal) (B2 : OutB.Idx → EReal)
    (v0 v1 : FVec Ideal S4096x256 .f32) (v2 : FVec Ideal S256x64 .bf16) (v4 : FVec Ideal S1x64 .f32)
    (v6 : FVec Ideal S64x256 .bf16) (v8 : FVec Ideal S1x256 .f32) (r : Fin 131072) (p : Fin 4096) (q : Fin 256)
    (hx : ∀ l : Fin 256, v0 (ix2 p l) = X (ix2 r l)) (he : v1 (ix2 p q) = E (ix2 r q))
    (hW1 : ∀ (l : Fin 256) (k : Fin 64), v2 (ix2 l k) = W1 (ix2 l k)) (hb1 : ∀ k : Fin 64, v4 (ix2 0 k) = B1 (ix1 k))
    (hW2 : ∀ k : Fin 64, v6 (ix2 k q) = W2 (ix2 k q)) (hb2 : v8 (ix2 0 q) = B2 (ix1 q)) :
    k0_pay1 (F := Ideal) v0 v1 v2 v4 v6 v8 (ix2 p q) = sample X E W1 B1 W2 B2 (ix2 r q) := by
  rw [pay_apply, Cert.HalfExp.exp_halfBits_mul]
  show _ = X (ix2 r q) + Ideal.sqrt (Ideal.exp (logVar X W1 B1 W2 B2 r q)) * E (ix2 r q)
  unfold logVar Cert.Sample.hidden hiddenAt
  simp only [hx, he, hW1, hb1, hW2, hb2]

end Cert.KernelIdeal.Payload

end
-- ==== Proof.KernelBlocks.lean ====
/-
  From blocks to the array. The grid has 32 points; point `t` stages rows `4096·t … 4096·t + 4095` of `x` and of `ε`
  and writes the same rows of the result; the four weight windows stage their whole arrays at every point. Before the
  region the host reshapes `b₁`, `b₂` to rows and changes the float format of `W₁`, `W₂` (the identity on the extended
  reals). So what point `t` writes back is block `t` of `sample` of the argument arrays, the 32 blocks cover all
  131072 rows (row `r` lies in block `r / 4096`), and the result array ends as `sample` of the arguments.
-/
import proofs.«425788_j67336497267186_3_alg».proof.Proof.Gen.KernelIdeal.Value
import proofs.«425788_j67336497267186_3_alg».proof.Proof.BlockEntry
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.KernelIdeal.Value Cert.KernelIdeal.Payload
open Idealize.ShloMosaic Idealize.ShloMosaic.TcCoe Idealize.SL.Sem Idealize.ShloMosaic.StableHlo Idealize.ShloMosaic.ValueIdx Cert.Sample
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result: `sample` of the six argument arrays as launched. -/
abbrev result (c : Dev nD) : S131072x256.Idx → EReal :=
  sample (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-! ## What the host leaves in the weight windows' arrays -/

/-- `W₁` after its change of format is `W₁`. -/
theorem V_w1 (c : Dev nD) : (V m c main_v2 : S256x64.Idx → EReal) = m ((c.tc : Thread nD τ).loc main_arg2) := by
  dsimp only [Gen.V, Gen.hostOps0]; after_results; rfl
/-- `W₂` after its change of format is `W₂`. -/
theorem V_w2 (c : Dev nD) : (V m c main_v3 : S64x256.Idx → EReal) = m ((c.tc : Thread nD τ).loc main_arg4) := by
  dsimp only [Gen.V, Gen.hostOps0]; after_results; rfl
/-- `b₁` reshaped to a row. -/
theorem V_b1 (c : Dev nD) : (V m c main_v0 : S1x64.Idx → EReal) = shapeCast S1x64 (m ((c.tc : Thread nD τ).loc main_arg3)) shapeCasts_S64_S1x64 := by
  dsimp only [Gen.V, Gen.hostOps0]; after_results; rfl
/-- `b₂` reshaped to a row. -/
theorem V_b2 (c : Dev nD) : (V m c main_v1 : S1x256.Idx → EReal) = shapeCast S1x256 (m ((c.tc : Thread nD τ).loc main_arg5)) shapeCasts_S256_S1x256 := by
  dsimp only [Gen.V, Gen.hostOps0]; after_results; rfl

/-! ## The index maps over the grid -/

/-- Windows 0, 1 and 6 move down the rows with the point; windows 2 to 5 stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` is row `4096·t + p` of the array. -/
def rowAt (t : Fin cfg0.N) (p : Fin 4096) : Fin 131072 :=
  ⟨4096 * t.val + p.val, by have ht : t.val < 32 := lt_of_lt_of_eq t.isLt N_0; have hp := p.isLt; omega⟩

/-! ## Each window's block as entries of the argument arrays -/

theorem xblk_apply (c : Dev nD) (t : Fin cfg0.N) (p : Fin 4096) (l : Fin 256) :
    (iblk m c 0 t : FVec Ideal S4096x256 .f32) (ix2 p l) = (m ((c.tc : Thread nD τ).loc main_arg0) : S131072x256.Idx → EReal) (ix2 (rowAt t p) l) := by
  obtain ⟨e0, e1, -⟩ := idx_facts t
  unfold iblk
  rw [View.read_apply]
  show V m c main_arg0 _ = _
  rw [V_main_arg0]
  congr 1
  funext a; apply Fin.ext
  match a with
  | ⟨0, _⟩ => show win0_0.index t (0 : Fin 2) * 4096 + 1 * p.val = 4096 * t.val + p.val; rw [e0]; omega
  | ⟨1, _⟩ => show win0_0.index t (1 : Fin 2) * 256 + 1 * l.val = l.val; rw [e1]; omega

theorem epsblk_apply (c : Dev nD) (t : Fin cfg0.N) (p : Fin 4096) (l : Fin 256) :
    (iblk m c 1 t : FVec Ideal S4096x256 .f32) (ix2 p l) = (m ((c.tc : Thread nD τ).loc main_arg1) : S131072x256.Idx → EReal) (ix2 (rowAt t p) l) := by
  obtain ⟨-, -, e0, e1, -⟩ := idx_facts t
  unfold iblk
  rw [View.read_apply]
  show V m c main_arg1 _ = _
  rw [V_main_arg1]
  congr 1
  funext a; apply Fin.ext
  match a with
  | ⟨0, _⟩ => show win0_1.index t (0 : Fin 2) * 4096 + 1 * p.val = 4096 * t.val + p.val; rw [e0]; omega
  | ⟨1, _⟩ => show win0_1.index t (1 : Fin 2) * 256 + 1 * l.val = l.val; rw [e1]; omega

theorem w1blk_apply (c : Dev nD) (t : Fin cfg0.N) (l : Fin 256) (k : Fin 64) :
    (iblk m c 2 t : FVec Ideal S256x64 .bf16) (ix2 l k) = (m ((c.tc : Thread nD τ).loc main_arg2) : S256x64.Idx → EReal) (ix2 l k) := by
  obtain ⟨-, -, -, -, e0, e1, -⟩ := idx_facts t
  unfold iblk
  rw [View.read_apply]
  show V m c main_v2 _ = _
  rw [V_w1]
  congr 1
  funext a; apply Fin.ext
  match a with
  | ⟨0, _⟩ => show win0_2.index t (0 : Fin 2) * 256 + 1 * l.val = l.val; rw [e0]; omega
  | ⟨1, _⟩ => show win0_2.index t (1 : Fin 2) * 64 + 1 * k.val = k.val; rw [e1]; omega

theorem w2blk_apply (c : Dev nD) (t : Fin cfg0.N) (k : Fin 64) (q : Fin 256) :
    (iblk m c 4 t : FVec Ideal S64x256 .bf16) (ix2 k q) = (m ((c.tc : Thread nD τ).loc main_arg4) : S64x256.Idx → EReal) (ix2 k q) := by
  obtain ⟨-, -, -, -, -, -, -, -, e0, e1, -⟩ := idx_facts t
  unfold iblk
  rw [View.read_apply]
  show V m c main_v3 _ = _
  rw [V_w2]
  congr 1
  funext a; apply Fin.ext
  match a with
  | ⟨0, _⟩ => show win0_4.index t (0 : Fin 2) * 64 + 1 * k.val = k.val; rw [e0]; omega
  | ⟨1, _⟩ => show win0_4.index t (1 : Fin 2) * 256 + 1 * q.val = q.val; rw [e1]; omega

theorem b1blk_apply (c : Dev nD) (t : Fin cfg0.N) (k : Fin 64) :
    (iblk m c 3 t : FVec Ideal S1x64 .f32) (ix2 0 k) = (m ((c.tc : Thread nD τ).loc main_arg3) : S64.Idx → EReal) (ix1 k) := by
  obtain ⟨-, -, -, -, -, -, e0, e1, -⟩ := idx_facts t
  unfold iblk
  rw [View.read_apply]
  show V m c main_v0 _ = _
  rw [V_b1]
  refine (shapeCast_addUnit_apply ![64] _ shapeCasts_S64_S1x64 _).trans (congrArg _ ?_)
  funext a; apply Fin.ext
  match a with
  | ⟨0, _⟩ => show win0_3.index t (1 : Fin 2) * 64 + 1 * k.val = k.val; rw [e1]; omega

theorem b2blk_apply (c : Dev nD) (t : Fin cfg0.N) (q : Fin 256) :
    (iblk m c 5 t : FVec Ideal S1x256 .f32) (ix2 0 q) = (m ((c.tc : Thread nD τ).loc main_arg5) : S256.Idx → EReal) (ix1 q) := by
  obtain ⟨-, -, -, -, -, -, -, -, -, -, e0, e1, -⟩ := idx_facts t
  unfold iblk
  rw [View.read_apply]
  show V m c main_v1 _ = _
  rw [V_b2]
  refine (shapeCast_addUnit_apply ![256] _ shapeCasts_S256_S1x256 _).trans (congrArg _ ?_)
  funext a; apply Fin.ext
  match a with
  | ⟨0, _⟩ => show win0_5.index t (1 : Fin 2) * 256 + 1 * q.val = q.val; rw [e1]; omega

/-! ## What each point writes back, the cover, the array -/

/-- Entry `[p, q]` of the output's block `t` is the array's entry `[4096·t + p, q]`. -/
theorem out_emb (t : Fin cfg0.N) (p : Fin 4096) (q : Fin 256) :
    ((cfg0.win 6).blk t).view.emb (ix2 p q) = ix2 (rowAt t p) q := by
  obtain ⟨-, -, -, -, -, -, -, -, -, -, -, -, e0, e1⟩ := idx_facts t
  funext a; apply Fin.ext
  match a with
  | ⟨0, _⟩ => show win0_6.index t (0 : Fin 2) * 4096 + 1 * p.val = 4096 * t.val + p.val; rw [e0]; omega
  | ⟨1, _⟩ => show win0_6.index t (1 : Fin 2) * 256 + 1 * q.val = q.val; rw [e1]; omega

/-- Point `t` writes back block `t` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S4096x256) hz, View.ld_unit_zero (S := S256x64) hz, View.ld_unit_zero (S := S1x64) hz,
    View.ld_unit_zero (S := S64x256) hz, View.ld_unit_zero (S := S1x256) hz]
  funext j
  obtain ⟨p, q, rfl⟩ : ∃ (p : Fin 4096) (q : Fin 256), j = ix2 p q := ⟨j 0, j 1, eq_ix2 j⟩
  rw [View.read_apply, out_emb]
  exact pay_eq_sample _ _ _ _ _ _ (iblk m c 0 t) (iblk m c 1 t) (iblk m c 2 t) (iblk m c 3 t) (iblk m c 4 t) (iblk m c 5 t)
    (rowAt t p) p q (fun l => xblk_apply m c t p l) (epsblk_apply m c t p q) (fun l k => w1blk_apply m c t l k)
    (fun k => b1blk_apply m c t k) (fun k => w2blk_apply m c t k q) (b2blk_apply m c t q)

/-- An index is in point `t`'s block iff each coordinate is in the block's range on its axis. -/
theorem mem_blk (t : Fin cfg0.N) (i : S131072x256.Idx) :
    i ∈ ((cfg0.win 6).blk t).view.set ↔ ∀ a : Fin 2, win0_6.index t a * S4096x256.size a ≤ (i a).val ∧ (i a).val < win0_6.index t a * S4096x256.size a + S4096x256.size a := by
  show i ∈ ((View.whole main_v4).slice (win0_6.rect t)).set ↔ _
  rw [View.set_slice_whole, Rect.mem_set_unit]
  exact Iff.rfl

/-- Every index of the result lies in some point's block: row `r` in block `r / 4096`. -/
theorem cover (i : S131072x256.Idx) : ∃ t : Fin cfg0.N, (cfg0.win 6).flush t = true ∧ i ∈ ((cfg0.win 6).blk t).view.set := by
  have hi0 : (i 0).val < 131072 := (i 0).isLt
  have hi1 : (i 1).val < 256 := (i 1).isLt
  let t : Fin cfg0.N := ⟨(i 0).val / 4096, by have hN : cfg0.N = 32 := N_0; omega⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096
              rw [e0]; show (i 0).val / 4096 * 4096 ≤ (i 0).val ∧ (i 0).val < (i 0).val / 4096 * 4096 + 4096; omega
  | ⟨1, _⟩ => show win0_6.index t (1 : Fin 2) * 256 ≤ (i 1).val ∧ (i 1).val < win0_6.index t (1 : Fin 2) * 256 + 256
              rw [e1]; omega

/-- The result array after the run is `result`. -/
theorem final (c : Dev nD) : (dats m 0 c).arrAt 6 cfg0.N = result m c :=
  (dats m 0 c).arrAt_eq_of_cover 6 (result m c) (fun t _ => flushed_eq m c t) cover

/-- The run, read: the result array at `sample` of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.Blocks

end
-- ==== Proof.RefSample.lean ====
/-
  The reference computes `Cert.Sample.sample`. Its fifteen host operations, read one at a time at an index, are
  the two matrix products as sums over the contracted axis, the two biases broadcast along the rows, the rectifier
  as a maximum with the splat of zero, then `exp`, `√`, the product with the noise and the sum with the mean.
  What is left after those readings is to see that the composed index functions pick the entries the
  specification names: row `r` of `x`, column `k` of `W₁`, entry `k` of `b₁`, and so on.
-/
import proofs.«425788_j67336497267186_3_alg».proof.Proof.Gen.ReferenceIdeal.Read
import proofs.«425788_j67336497267186_3_alg».proof.Proof.SampleSpec

noncomputable section

namespace Cert.ReferenceIdeal.RefValue

open Cert.ReferenceIdeal Cert.ReferenceIdeal.Read Idealize.ShloMosaic Idealize.ShloMosaic.ValueIdx

/-- The left factor of the first product, reached through the second product's left index: `x[r, l]`. -/
theorem x_entry (i : S131072x256.Idx) (k : Fin 64) (l : Fin 256) : lidx_main_v0 (lidx_main_v5 i k) l = ix2 (i 0) l :=
  funext fun a => match a with | ⟨0, _⟩ => rfl | ⟨1, _⟩ => rfl
/-- The right factor of the first product: `W₁[l, k]`. -/
theorem w1_entry (i : S131072x256.Idx) (k : Fin 64) (l : Fin 256) : ridx_main_v0 (lidx_main_v5 i k) l = ix2 l k :=
  funext fun a => match a with | ⟨0, _⟩ => rfl | ⟨1, _⟩ => rfl
/-- The first bias through its two broadcasts: `b₁[k]`. -/
theorem b1_entry (i : S131072x256.Idx) (k : Fin 64) : idx_main_v1 (idx_main_v2 (lidx_main_v5 i k)) = ix1 k :=
  funext fun a => match a with | ⟨0, _⟩ => rfl
/-- The right factor of the second product: `W₂[k, j]`. -/
theorem w2_entry (i : S131072x256.Idx) (k : Fin 64) : ridx_main_v5 i k = ix2 k (i 1) :=
  funext fun a => match a with | ⟨0, _⟩ => rfl | ⟨1, _⟩ => rfl
/-- The second bias through its two broadcasts: `b₂[j]`. -/
theorem b2_entry (i : S131072x256.Idx) : idx_main_v6 (idx_main_v7 i) = ix1 (i 1) :=
  funext fun a => match a with | ⟨0, _⟩ => rfl

/-- The reference's last stage is the specification. -/
theorem ref_eq (x0 x1 : (⟨S131072x256, .f32⟩ : BufTy).Contents (Elt Ideal)) (x2 : (⟨S256x64, .f32⟩ : BufTy).Contents (Elt Ideal))
    (x3 : (⟨S64, .f32⟩ : BufTy).Contents (Elt Ideal)) (x4 : (⟨S64x256, .f32⟩ : BufTy).Contents (Elt Ideal))
    (x5 : (⟨S256, .f32⟩ : BufTy).Contents (Elt Ideal)) :
    val_main_v12 (F := Ideal) x0 x1 x2 x3 x4 x5 = Cert.Sample.sample x0 x1 x2 x3 x4 x5 := by
  funext i
  simp only [val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_call0_v0_apply, val_main_call0_cst_apply,
    x_entry, w1_entry, b1_entry, w2_entry, b2_entry,
    Ideal.addf_def, Ideal.mulf_def, Ideal.maximumf_def, Ideal.hostUnary_exp_def, Ideal.hostUnary_sqrt_def,
    Ideal.ofBits_def, Ideal.ofBits_zero_f32]
  rfl

end Cert.ReferenceIdeal.RefValue

end
-- ==== Proof.lean ====
/- A draw from a diagonal Gaussian whose log-variance is a two-layer perceptron of its mean:
   `out[r, j] = x[r, j] + σ[r, j] · ε[r, j]`, with log-variance `z[r, j] = ∑ₖ max (∑ₗ x[r, l] · W₁[l, k] + b₁[k]) 0 · W₂[k, j] + b₂[j]`.
   The kernel works on blocks of 4096 rows and takes `σ = exp (z / 2)`; the reference works on the whole arrays and takes
   `σ = √(exp z)`. On the extended reals these are one function of `z` (`Cert.HalfExp.exp_half_mul`), the kernel's two changes
   of float format are the identity, and each matrix product is the plain sum over its contracted axis on both sides; so both
   programs end with `Cert.Sample.sample` of the six argument arrays (`Cert.KernelIdeal.Blocks.run` for the kernel, read off
   its blocks; `Cert.ReferenceIdeal.RefValue.ref_eq` for the reference, read off its operations). No hypothesis on the inputs is
   used for the values. The kernel's idealization rewrote nothing, so there is nothing to preserve. -/
import proofs.«425788_j67336497267186_3_alg».proof.Defs
import proofs.«425788_j67336497267186_3_alg».proof.Proof.Gen.Kernel
import proofs.«425788_j67336497267186_3_alg».proof.Proof.Gen.Kernel.Skeleton
import proofs.«425788_j67336497267186_3_alg».proof.Proof.Gen.Kernel.Launch
import proofs.«425788_j67336497267186_3_alg».proof.Proof.Gen.Kernel.Points
import proofs.«425788_j67336497267186_3_alg».proof.Proof.Gen.Kernel.Frame
import proofs.«425788_j67336497267186_3_alg».proof.Proof.Gen.KernelIdeal
import proofs.«425788_j67336497267186_3_alg».proof.Proof.Gen.KernelIdeal.Skeleton
import proofs.«425788_j67336497267186_3_alg».proof.Proof.Gen.KernelIdeal.Launch
import proofs.«425788_j67336497267186_3_alg».proof.Proof.Gen.KernelIdeal.Points
import proofs.«425788_j67336497267186_3_alg».proof.Proof.Gen.KernelIdeal.Frame
import proofs.«425788_j67336497267186_3_alg».proof.Proof.Gen.ReferenceIdeal
import proofs.«425788_j67336497267186_3_alg».proof.Proof.Gen.Pre_finite_inputs
import proofs.«425788_j67336497267186_3_alg».proof.Proof.Gen.KernelIdeal.Value
import proofs.«425788_j67336497267186_3_alg».proof.Proof.Gen.ReferenceIdeal.Run
import proofs.«425788_j67336497267186_3_alg».proof.Proof.Gen.ReferenceIdeal.Read
import Idealize.ShloMosaic.Adequacy
import Idealize.ShloMosaic.Init
import proofs.«425788_j67336497267186_3_alg».proof.Proof.KernelBlocks
import proofs.«425788_j67336497267186_3_alg».proof.Proof.RefSample

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with `sample` of the arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
